-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x64x32 : Shape := ⟨3, ![1024, 64, 32]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x64x32 : S_.BroadcastsInDim S1024x64x32 (![] : Fin 0 → Fin S1024x64x32.rank)
  reducesTo_S1024x64x32_S_d0_1_2 : S1024x64x32.ReducesTo [0, 1, 2] S_

variable [Facts]

def fn {F : FTy → Type} [FloatOps F] (main_arg0 : FVec F S256x1024 .f32) (main_arg1 : FVec F S1024x64x32 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x64x32 .f32 := Host.absf main_arg1
  let main_cst_0 : FVec F S_ .f32 := constant S_ .f32 0x7F800000#32
  let main_v5 : FVec F S1024x64x32 .f32 := broadcastInDim S1024x64x32 ![] bcast_S_S1024x64x32 main_cst_0
  let main_v6 : IVec S1024x64x32 1 := cmpf .olt main_v4 main_v5
  let main_c_1 : IVec S_ 1 := constantI S_ 1 1#1
  let main_v7 : IVec S_ 1 := (fun x v => Host.reduce IntOp.andi x v reducesTo_S1024x64x32_S_d0_1_2 h_S_) main_v6 main_c_1
  let main_v8 : IVec S_ 1 := andi main_v3 main_v7
  main_v8
-- ==== Kernel.lean ====
abbrev S256x1024 : Shape := ⟨2, ![256, 1024]⟩
abbrev S1024x64x32 : Shape := ⟨3, ![1024, 64, 32]⟩
abbrev S1024x2048 : Shape := ⟨2, ![1024, 2048]⟩
abbrev S256x2048 : Shape := ⟨2, ![256, 2048]⟩
abbrev S1024x512 : Shape := ⟨2, ![1024, 512]⟩
abbrev S256x512 : Shape := ⟨2, ![256, 512]⟩
abbrev S256x64x32 : Shape := ⟨3, ![256, 64, 32]⟩
abbrev S64x256x32 : Shape := ⟨3, ![64, 256, 32]⟩
abbrev S64x256x1 : Shape := ⟨3, ![64, 256, 1]⟩
abbrev S1x256x32 : Shape := ⟨3, ![1, 256, 32]⟩
abbrev S1x256x1 : Shape := ⟨3, ![1, 256, 1]⟩
abbrev S256x32 : Shape := ⟨2, ![256, 32]⟩
abbrev S256x1x32 : Shape := ⟨3, ![256, 1, 32]⟩
abbrev S256x256x32 : Shape := ⟨3, ![256, 256, 32]⟩
abbrev S256x256 : Shape := ⟨2, ![256, 256]⟩
abbrev S256 : Shape := ⟨1, ![256]⟩
abbrev S256x1 : Shape := ⟨2, ![256, 1]⟩
abbrev S64x256 : Shape := ⟨2, ![64, 256]⟩
abbrev S256x64 : Shape := ⟨2, ![256, 64]⟩
abbrev S256x1088 : Shape := ⟨2, ![256, 1088]⟩

abbrev nBuf : Space → Nat
  | .hbm => 10
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1024x64x32, .f32⟩
  | .hbm, ⟨2, _⟩ => ⟨S1024x2048, .f32⟩
  | .hbm, ⟨3, _⟩ => ⟨S256x2048, .f32⟩
  | .hbm, ⟨4, _⟩ => ⟨S256x64x32, .f32⟩
  | .hbm, ⟨5, _⟩ => ⟨S64x256x32, .f32⟩
  | .hbm, ⟨6, _⟩ => ⟨S64x256x1, .f32⟩
  | .hbm, ⟨7, _⟩ => ⟨S64x256, .f32⟩
  | .hbm, ⟨8, _⟩ => ⟨S256x64, .f32⟩
  | .hbm, ⟨9, _⟩ => ⟨S256x1088, .f32⟩
  | .local _ .vmem, ⟨0, _⟩ => ⟨S256x1024, .f32⟩
  | .local _ .vmem, ⟨1, _⟩ => ⟨S1024x512, .f32⟩
  | .local _ .vmem, ⟨2, _⟩ => ⟨S1024x512, .f32⟩
  | .local _ .vmem, ⟨3, _⟩ => ⟨S256x512, .f32⟩
  | .local _ .vmem, ⟨4, _⟩ => ⟨S256x512, .f32⟩
  | .local _ .vmem, ⟨5, _⟩ => ⟨S1x256x32, .f32⟩
  | .local _ .vmem, ⟨6, _⟩ => ⟨S1x256x32, .f32⟩
  | .local _ .vmem, ⟨7, _⟩ => ⟨S1x256x1, .f32⟩
  | .local _ .vmem, ⟨8, _⟩ => ⟨S1x256x1, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S1024x64x32_S1024x2048 : S1024x64x32.ShapeCasts S1024x2048
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S256x512_S256x512_0_0 : ∀ a, (![0, 0] : Fin 2 → Nat) a + S256x512.size a ≤ S256x512.size a
  h_S256x512 : 0 < S256x512.numel
  shapeCasts_S256x2048_S256x64x32 : S256x2048.ShapeCasts S256x64x32
  transposes_S256x64x32_S64x256x32_1_0_2 : S256x64x32.Transposes [1, 0, 2] S64x256x32
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  shapeCasts_S256x32_S256x1x32 : S256x32.ShapeCasts S256x1x32
  shapeCasts_S256x32_S1x256x32 : S256x32.ShapeCasts S1x256x32
  broadcasts_S256x1x32_S256x256x32 : S256x1x32.Broadcasts S256x256x32
  broadcasts_S1x256x32_S256x256x32 : S1x256x32.Broadcasts S256x256x32
  reduces_S256x256x32_S256x256 : S256x256x32.Reduces [2] S256x256
  reduces_S256x256_S256 : S256x256.Reduces [1] S256
  shapeCasts_S256_S256x1 : S256.ShapeCasts S256x1
  shapeCasts_S256x1_S1x256x1 : S256x1.ShapeCasts S1x256x1
  inb_S1x256x1_S1x256x1_0_0_0 : ∀ a, (![0, 0, 0] : Fin 3 → Nat) a + S1x256x1.size a ≤ S1x256x1.size a
  h_S1x256x1 : 0 < S1x256x1.numel
  shapeCasts_S64x256x1_S64x256 : S64x256x1.ShapeCasts S64x256
  transposes_S64x256_S256x64_1_0 : S64x256.Transposes [1, 0] S256x64
  concatenates_S256x1024_S256x64_S256x1088_d1 : Shape.Concatenates [S256x1024, S256x64] S256x1088 1
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x2048.size a
  hwx0_1 : ∀ i : grid0.Coords, EltTy.bits .f32 = 32 ∨ (Rect.block (s := S1024x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x2048.size a
  hwx0_2 : ∀ i : grid0.Coords, EltTy.bits .f32 = 32 ∨ (Rect.block (s := S256x2048) S256x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x32.size a ≤ S64x256x32.size a
  hwx1_0 : ∀ i : grid1.Coords, EltTy.bits .f32 = 32 ∨ (Rect.block (s := S64x256x32) S1x256x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S64x256x1.size a
  hwx1_1 : ∀ i : grid1.Coords, EltTy.bits .f32 = 32 ∨ (Rect.block (s := S64x256x1) S1x256x1.size (cc1_transform_1 i) (hinb1_1 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x256x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S256x1024 : Shape := ⟨2, ![256, 1024]⟩
abbrev S1024x64x32 : Shape := ⟨3, ![1024, 64, 32]⟩
abbrev S1024x2048 : Shape := ⟨2, ![1024, 2048]⟩
abbrev S256x2048 : Shape := ⟨2, ![256, 2048]⟩
abbrev S256x64x32 : Shape := ⟨3, ![256, 64, 32]⟩
abbrev S256x1x64x32 : Shape := ⟨4, ![256, 1, 64, 32]⟩
abbrev S1x256x64x32 : Shape := ⟨4, ![1, 256, 64, 32]⟩
abbrev S256x256x64x32 : Shape := ⟨4, ![256, 256, 64, 32]⟩
abbrev S_ : Shape := ⟨0, ![]⟩
abbrev S256x256x64 : Shape := ⟨3, ![256, 256, 64]⟩
abbrev S256x64 : Shape := ⟨2, ![256, 64]⟩
abbrev S256x1088 : Shape := ⟨2, ![256, 1088]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x64x32, .f32⟩
  | .hbm, ⟨2, _⟩ => ⟨S1024x2048, .f32⟩
  | .hbm, ⟨3, _⟩ => ⟨S256x2048, .f32⟩
  | .hbm, ⟨4, _⟩ => ⟨S256x64x32, .f32⟩
  | .hbm, ⟨5, _⟩ => ⟨S256x1x64x32, .f32⟩
  | .hbm, ⟨6, _⟩ => ⟨S1x256x64x32, .f32⟩
  | .hbm, ⟨7, _⟩ => ⟨S256x256x64x32, .f32⟩
  | .hbm, ⟨8, _⟩ => ⟨S256x256x64x32, .f32⟩
  | .hbm, ⟨9, _⟩ => ⟨S256x256x64x32, .f32⟩
  | .hbm, ⟨10, _⟩ => ⟨S256x256x64x32, .f32⟩
  | .hbm, ⟨11, _⟩ => ⟨S_, .f32⟩
  | .hbm, ⟨12, _⟩ => ⟨S256x256x64, .f32⟩
  | .hbm, ⟨13, _⟩ => ⟨S256x256x64, .f32⟩
  | .hbm, ⟨14, _⟩ => ⟨S256x256x64, .f32⟩
  | .hbm, ⟨15, _⟩ => ⟨S_, .f32⟩
  | .hbm, ⟨16, _⟩ => ⟨S256x64, .f32⟩
  | .hbm, ⟨17, _⟩ => ⟨S_, .f32⟩
  | .hbm, ⟨18, _⟩ => ⟨S256x64, .f32⟩
  | .hbm, ⟨19, _⟩ => ⟨S256x64, .f32⟩
  | .hbm, ⟨20, _⟩ => ⟨S256x1088, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S1024x64x32_S1024x2048 : S1024x64x32.ShapeCasts S1024x2048
  shapeCasts_S256x2048_S256x64x32 : S256x2048.ShapeCasts S256x64x32
  bcast_S256x64x32_S256x1x64x32_0_2_3 : S256x64x32.BroadcastsInDim S256x1x64x32 (![0, 2, 3] : Fin 3 → Fin S256x1x64x32.rank)
  bcast_S256x64x32_S1x256x64x32_1_2_3 : S256x64x32.BroadcastsInDim S1x256x64x32 (![1, 2, 3] : Fin 3 → Fin S1x256x64x32.rank)
  bcast_S256x1x64x32_S256x256x64x32_0_1_2_3 : S256x1x64x32.BroadcastsInDim S256x256x64x32 (![0, 1, 2, 3] : Fin 4 → Fin S256x256x64x32.rank)
  bcast_S1x256x64x32_S256x256x64x32_0_1_2_3 : S1x256x64x32.BroadcastsInDim S256x256x64x32 (![0, 1, 2, 3] : Fin 4 → Fin S256x256x64x32.rank)
  reducesTo_S256x256x64x32_S256x256x64_d3 : S256x256x64x32.ReducesTo [3] S256x256x64
  h_S_ : 0 < S_.numel
  reducesTo_S256x256x64_S256x64_d1 : S256x256x64.ReducesTo [1] S256x64
  bcast_S_S256x64 : S_.BroadcastsInDim S256x64 (![] : Fin 0 → Fin S256x64.rank)
  concatenates_S256x1024_S256x64_S256x1088_d1 : Shape.Concatenates [S256x1024, S256x64] S256x1088 1
  dot_S256x1024_S1024x2048_S256x2048_1_0_0_1_n_n_wf : DotDims.WF S256x1024 S1024x2048 S256x2048 [1] [0] [0] [1] [] []

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

class Facts : Prop extends Facts₀ where

variable [Facts]
-- ==== Proof.Tiles.lean ====
/-
  What ONE grid point of each of the two kernels computes, at the ideal instance, index by index.

  The projection kernel: a block of 512 columns of the product. Entry (p, q) of the stored block is the plain sum over
  the 1024 contracted positions k of x[p, k] · t[k, q]: the two truncations to bf16 are the identity on extended reals,
  the cast of the right operand to its own shape is the identity, and a product accumulated into the zero splat is
  the sum alone.

  The pairwise kernel: for one channel's 256 × 32 block u, entry i of the stored column is
      (∑ j, exp (0 − ∑ c, |u[i, c] − u[j, c]|)) − 1,
  the two broadcasts spreading u along the second and the first axis of a 256 × 256 × 32 array, the lane sum running
  over the 32 last positions, the row sum over the 256 second positions.
-/
import proofs.«145873_j72430328481231_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tiles

open Cert.KernelIdeal Cert.KernelIdeal.Gen
open Idealize.ShloMosaic Idealize.ShloMosaic.ValueIdx

/-! ## Layout steps read at an index -/

section Layout
variable {α : Type}

/-- A 256 × 32 array given a unit middle axis reads, at (i, u, c), the operand at (i, c). -/
theorem cast_mid_unit (v : S256x32.Idx → α) (h : S256x32.ShapeCasts S256x1x32) (i : Fin 256) (u : Fin 1) (c : Fin 32) :
    shapeCast S256x1x32 v h (ix3 i u c) = v (ix2 i c) :=
  shapeCast_apply v h _ _ (by
    have hu : u.val = 0 := by omega
    rw [Shape.rowMajor_val_two, Shape.rowMajor_val_three]
    show i.val * 32 + c.val = (i.val * 1 + u.val) * 32 + c.val
    rw [hu, Nat.mul_one, Nat.add_zero])

/-- A vector of 256 entries given a trailing unit axis reads, at (i, u), the operand at i. -/
theorem cast_trailing_unit (v : S256.Idx → α) (h : S256.ShapeCasts S256x1) (i : Fin 256) (u : Fin 1) :
    shapeCast S256x1 v h (ix2 i u) = v (ix1 i) :=
  shapeCast_apply v h _ _ (by
    have hu : u.val = 0 := by omega
    rw [Shape.rowMajor_val_one, Shape.rowMajor_val_two]
    show i.val = i.val * 1 + u.val
    rw [hu, Nat.mul_one, Nat.add_zero])

/-- Spread along the second axis: entry (i, j, c) of the 256 × 256 × 32 array is the operand's (i, 0, c). -/
theorem spread_second (v : S256x1x32.Idx → α) (h : S256x1x32.Broadcasts S256x256x32) (i j : Fin 256) (c : Fin 32) :
    broadcastTo S256x256x32 v h (ix3 i j c) = v (ix3 i (0 : Fin 1) c) :=
  broadcastTo_apply v h _ _ (fun a => match a with
    | ⟨0, _⟩ => by show i.val = if (256 : Nat) = 1 then 0 else i.val; rw [if_neg (by decide)]
    | ⟨1, _⟩ => by show 0 = if (1 : Nat) = 1 then 0 else j.val; rw [if_pos rfl]
    | ⟨2, _⟩ => by show c.val = if (32 : Nat) = 1 then 0 else c.val; rw [if_neg (by decide)])

/-- Spread along the first axis: entry (i, j, c) of the 256 × 256 × 32 array is the operand's (0, j, c). -/
theorem spread_first (v : S1x256x32.Idx → α) (h : S1x256x32.Broadcasts S256x256x32) (i j : Fin 256) (c : Fin 32) :
    broadcastTo S256x256x32 v h (ix3 i j c) = v (ix3 (0 : Fin 1) j c) :=
  broadcastTo_apply v h _ _ (fun a => match a with
    | ⟨0, _⟩ => by show 0 = if (1 : Nat) = 1 then 0 else i.val; rw [if_pos rfl]
    | ⟨1, _⟩ => by show j.val = if (256 : Nat) = 1 then 0 else j.val; rw [if_neg (by decide)]
    | ⟨2, _⟩ => by show c.val = if (32 : Nat) = 1 then 0 else c.val; rw [if_neg (by decide)])

end Layout

/-! ## The two sums of the pairwise kernel as sums over literal ranges -/

/-- The lane sum: entry (i, j) is the sum over the 32 last positions. -/
theorem lane_sum (src : FVec Ideal S256x256x32 .f32) (h : S256x256x32.Reduces [2] S256x256) (hφ : FKind.Formats .f32)
    (hacc : (0x00000000#32 : BitVec 32) = 0x00000000#32) (i j : Fin 256) :
    multiReduction .add [2] S256x256 src 0x00000000#32 h hφ hacc (ix2 i j) = ∑ c : Fin 32, src (ix3 i j c) :=
  (Ideal.multiReduction_add_single src 0x00000000#32 h hφ hacc (ix2 i j)).trans
    (Finset.sum_congr rfl fun k _ => congrArg src (funext fun a => Fin.ext (by
      match a with | ⟨0, _⟩ => rfl | ⟨1, _⟩ => rfl | ⟨2, _⟩ => rfl)))

/-- The row sum: entry i is the sum over the 256 second positions. -/
theorem row_sum (src : FVec Ideal S256x256 .f32) (h : S256x256.Reduces [1] S256) (hφ : FKind.Formats .f32)
    (hacc : (0x00000000#32 : BitVec 32) = 0x00000000#32) (i : Fin 256) :
    multiReduction .add [1] S256 src 0x00000000#32 h hφ hacc (ix1 i) = ∑ j : Fin 256, src (ix2 i j) :=
  (Ideal.multiReduction_add_single src 0x00000000#32 h hφ hacc (ix1 i)).trans
    (Finset.sum_congr rfl fun k _ => congrArg src (funext fun a => Fin.ext (by
      match a with | ⟨0, _⟩ => rfl | ⟨1, _⟩ => rfl)))

/-! ## The projection kernel's block -/

theorem lhs_axis0 (i : S256x512.Idx) (q : dot_S256x1024_S1024x512_S256x512_1_0_0_1_n_n.contr.Idx) :
    (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem lhs_axis1 (i : S256x512.Idx) (q : dot_S256x1024_S1024x512_S256x512_1_0_0_1_n_n.contr.Idx) :
    (dot_S256x1024_S1024x512_S256x512_1_0_0_1_n_n.lhsIdx i q 1).val = (q ⟨0, by decide⟩).val :=
  dot_S256x1024_S1024x512_S256x512_1_0_0_1_n_n.lhsIdx_val_of_single rfl i q
theorem rhs_axis0 (i : S256x512.Idx) (q : dot_S256x1024_S1024x512_S256x512_1_0_0_1_n_n.contr.Idx) :
    (dot_S256x1024_S1024x512_S256x512_1_0_0_1_n_n.rhsIdx i q 0).val = (q ⟨0, by decide⟩).val :=
  dot_S256x1024_S1024x512_S256x512_1_0_0_1_n_n.rhsIdx_val_of_single rfl i q
theorem rhs_axis1 (i : S256x512.Idx) (q : dot_S256x1024_S1024x512_S256x512_1_0_0_1_n_n.contr.Idx) :
    (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

/-- Entry (p, q) of the block the projection kernel stores: the sum over k of x[p, k] · t[k, q]. -/
theorem product_block (x : FVec Ideal S256x1024 .f32) (t : FVec Ideal S1024x512 .f32) (p : Fin 256) (q : Fin 512) :
    k0_pay1 (F := Ideal) x t (ix2 p q) = ∑ k : Fin 1024, x (ix2 p k) * t (ix2 k q) := by
  unfold k0_pay1
  simp only [matmul]
  rw [Ideal.matmul_constant_zero_apply, ← Equiv.sum_comp (contrEquiv1 dot_S256x1024_S1024x512_S256x512_1_0_0_1_n_n 1024 rfl rfl).symm]
  refine Finset.sum_congr rfl fun k _ => ?_
  have hk := contrEquiv1_symm_val dot_S256x1024_S1024x512_S256x512_1_0_0_1_n_n 1024 rfl rfl k
  have el : dot_S256x1024_S1024x512_S256x512_1_0_0_1_n_n.lhsIdx (ix2 p q) ((contrEquiv1 dot_S256x1024_S1024x512_S256x512_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x512_S256x512_1_0_0_1_n_n.rhsIdx (ix2 p q) ((contrEquiv1 dot_S256x1024_S1024x512_S256x512_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er, shapeCast_self]
  rfl

/-! ## The pairwise kernel's block, stage by stage -/

/-- |u[i, c] − u[j, c]| as a 256 × 256 × 32 array. -/
def absDiff (u : FVec Ideal S1x256x32 .f32) : FVec Ideal S256x256x32 .f32 :=
  absf (subf
    (broadcastTo S256x256x32 (shapeCast S256x1x32 (shapeCast S256x32 u shapeCasts_S1x256x32_S256x32) shapeCasts_S256x32_S256x1x32) broadcasts_S256x1x32_S256x256x32)
    (broadcastTo S256x256x32 (shapeCast S1x256x32 (shapeCast S256x32 u shapeCasts_S1x256x32_S256x32) shapeCasts_S256x32_S1x256x32) broadcasts_S1x256x32_S256x256x32))

theorem absDiff_apply (u : FVec Ideal S1x256x32 .f32) (i j : Fin 256) (c : Fin 32) :
    absDiff u (ix3 i j c) = FloatOps.absf (u (ix3 (0 : Fin 1) i c) - u (ix3 (0 : Fin 1) j c)) := by
  unfold absDiff
  show FloatOps.absf (_ - _) = _
  rw [spread_second, cast_mid_unit, shapeCast_1ab_ab_apply, spread_first, shapeCast_ab_1ab_apply, shapeCast_1ab_ab_apply]

/-- The L1 distance of rows i and j. -/
def dist (u : FVec Ideal S1x256x32 .f32) : FVec Ideal S256x256 .f32 :=
  multiReduction .add [2] S256x256 (absDiff u) 0x00000000#32 reduces_S256x256x32_S256x256 (.inl rfl) rfl

theorem dist_apply (u : FVec Ideal S1x256x32 .f32) (i j : Fin 256) :
    dist u (ix2 i j) = ∑ c : Fin 32, FloatOps.absf (u (ix3 (0 : Fin 1) i c) - u (ix3 (0 : Fin 1) j c)) :=
  (lane_sum (absDiff u) _ _ _ i j).trans (Finset.sum_congr rfl fun c _ => absDiff_apply u i j c)

/-- exp of the negated distance. -/
def weight (u : FVec Ideal S1x256x32 .f32) : FVec Ideal S256x256 .f32 :=
  exp (subf (broadcast S256x256 (Scalar.ofBits (F := Ideal) .f32 0x00000000#32)) (dist u))

theorem weight_apply (u : FVec Ideal S1x256x32 .f32) (i j : Fin 256) :
    weight u (ix2 i j) = Ideal.exp (Ideal.ofBits .f32 0x00000000#32 - dist u (ix2 i j)) := rfl

/-- The sum of the weights over j. -/
def total (u : FVec Ideal S1x256x32 .f32) : FVec Ideal S256 .f32 :=
  multiReduction .add [1] S256 (weight u) 0x00000000#32 reduces_S256x256_S256 (.inl rfl) rfl

theorem total_apply (u : FVec Ideal S1x256x32 .f32) (i : Fin 256) :
    total u (ix1 i) = ∑ j : Fin 256, weight u (ix2 i j) :=
  row_sum (weight u) _ _ _ i

/-- The stored value is these stages composed. -/
theorem k1_pay1_eq (u : FVec Ideal S1x256x32 .f32) :
    k1_pay1 (F := Ideal) u = shapeCast S1x256x1 (subf (shapeCast S256x1 (total u) shapeCasts_S256_S256x1)
      (broadcast S256x1 (Scalar.ofBits (F := Ideal) .f32 0x3F800000#32))) shapeCasts_S256x1_S1x256x1 := rfl

/-- Entry i of the column the pairwise kernel stores. -/
theorem column_block (u : FVec Ideal S1x256x32 .f32) (i : Fin 256) :
    k1_pay1 (F := Ideal) u (ix3 (0 : Fin 1) i (0 : Fin 1))
      = (∑ j : Fin 256, Ideal.exp (Ideal.ofBits .f32 0x00000000#32
          - ∑ c : Fin 32, FloatOps.absf (u (ix3 (0 : Fin 1) i c) - u (ix3 (0 : Fin 1) j c))))
        - Ideal.ofBits .f32 0x3F800000#32 := by
  rw [k1_pay1_eq, shapeCast_ab_1ab_apply]
  show shapeCast S256x1 (total u) shapeCasts_S256_S256x1 (ix2 i (0 : Fin 1)) - Ideal.ofBits .f32 0x3F800000#32 = _
  rw [cast_trailing_unit, total_apply]
  refine congrArg (· - _) (Finset.sum_congr rfl fun j _ => ?_)
  rw [weight_apply, dist_apply]

end Cert.KernelIdeal.Tiles

end
-- ==== Proof.RefAt.lean ====
/-
  The reference, read at an index, at the ideal instance.

  With M = (x · reshape T) reshaped to 256 × 64 × 32, the reference's last array before the concatenation holds, at (i, b),
      (∑ j, exp (−∑ c, |M[i, b, c] − M[j, b, c]|)) − 1:
  the two broadcasts read M at rows i and j, both sums start from the zero word (which is 0), and the host's
  absolute value, negation and exponential are the extended reals' own.
  Before it, entry (p, n) of the product is ∑ k, x[p, k] · (reshape T)[k, n].
-/
import proofs.«145873_j72430328481231_1_alg».proof.Proof.Gen.ReferenceIdeal.Read

noncomputable section

namespace Cert.ReferenceIdeal.At

open Cert.ReferenceIdeal Cert.ReferenceIdeal.Gen Cert.ReferenceIdeal.Read
open Idealize.ShloMosaic Idealize.ShloMosaic.ValueIdx

variable (x0 : (⟨S256x1024, .f32⟩ : BufTy).Contents (Elt Ideal)) (x1 : (⟨S1024x64x32, .f32⟩ : BufTy).Contents (Elt Ideal))

/-- Entry (p, n) of the product: the sum over k of x[p, k] · (reshape T)[k, n]. -/
theorem product_apply (p : Fin 256) (n : Fin 2048) :
    val_main_v1 (F := Ideal) x0 x1 (ix2 p n) = ∑ k : Fin 1024, x0 (ix2 p k) * val_main_v0 (F := Ideal) x1 (ix2 k n) := by
  rw [val_main_v1_apply]
  refine Finset.sum_congr rfl fun k _ => ?_
  have el : lidx_main_v1 (ix2 p n) k = ix2 p k := funext fun a => Fin.ext (by match a with | ⟨0, _⟩ => rfl | ⟨1, _⟩ => rfl)
  have er : ridx_main_v1 (ix2 p n) k = ix2 k n := funext fun a => Fin.ext (by match a with | ⟨0, _⟩ => rfl | ⟨1, _⟩ => rfl)
  rw [el, er]

/-- The row-i operand of the difference at (i, j, b, c) is M[i, b, c]. -/
theorem left_index (i j : Fin 256) (b : Fin 64) (c : Fin 32) :
    idx_main_v3 (idx_main_v5 (idx_main_v9 (idx_main_v12 (ix2 i b) j) c)) = ix3 i b c :=
  funext fun a => Fin.ext (by match a with | ⟨0, _⟩ => rfl | ⟨1, _⟩ => rfl | ⟨2, _⟩ => rfl)

/-- The row-j operand of the difference at (i, j, b, c) is M[j, b, c]. -/
theorem right_index (i j : Fin 256) (b : Fin 64) (c : Fin 32) :
    idx_main_v4 (idx_main_v6 (idx_main_v9 (idx_main_v12 (ix2 i b) j) c)) = ix3 j b c :=
  funext fun a => Fin.ext (by match a with | ⟨0, _⟩ => rfl | ⟨1, _⟩ => rfl | ⟨2, _⟩ => rfl)

/-- Entry (i, b) of the array the reference concatenates to x. -/
theorem out_apply (i : Fin 256) (b : Fin 64) :
    val_main_v14 (F := Ideal) x0 x1 (ix2 i b)
      = (∑ j : Fin 256, Ideal.exp (-(∑ c : Fin 32,
            FloatOps.absf (F := Ideal) (φ := .f32) (val_main_v2 (F := Ideal) x0 x1 (ix3 i b c) - val_main_v2 (F := Ideal) x0 x1 (ix3 j b c)))))
        - Ideal.ofBits .f32 0x3F800000#32 := by
  rw [val_main_v14_apply, val_main_v12_apply, val_main_v13_apply, val_main_cst_1_apply, val_main_cst_0_apply]
  simp only [Ideal.subf_def, Ideal.ofBits_def, Ideal.ofBits_zero_f32, zero_add]
  refine congrArg (· - _) (Finset.sum_congr rfl fun j _ => ?_)
  rw [val_main_v11_apply, val_main_v10_apply, val_main_v9_apply, val_main_cst_apply]
  simp only [Ideal.hostUnary_exp_def, Ideal.hostNegf_def, Ideal.negf_def, Ideal.ofBits_def, Ideal.ofBits_zero_f32, zero_add]
  refine congrArg (fun s => Ideal.exp (-s)) (Finset.sum_congr rfl fun c _ => ?_)
  rw [val_main_v8_apply, val_main_v7_apply, val_main_v5_apply, val_main_v3_apply, val_main_v6_apply, val_main_v4_apply,
    left_index, right_index]
  simp only [Ideal.hostAbsf_def, Ideal.subf_def]

end Cert.ReferenceIdeal.At

end
-- ==== Proof.KernelValue.lean ====
/-
  The arrays of the kernel program, boundary by boundary, at the ideal instance, each as a function of the two
  argument arrays x (256 × 1024) and T (1024 × 64 × 32).

  * Entering the first region, the reshaped T is T read row-major as 1024 × 2048.
  * The first region writes the 256 × 2048 product in four blocks of 512 columns; point t writes columns
    512·t … 512·t + 511, and entry (p, q) of its block is ∑ k, x[p, k] · (reshape T)[k, 512·t + q]. Every column lies in
    exactly the block of point ⌊n / 512⌋, so the array ends as the whole product.
  * Between the regions the product is reshaped to M (256 × 64 × 32) and transposed to 64 × 256 × 32: entry (b, i, c)
    is M[i, b, c].
  * The second region writes a 64 × 256 × 1 array, one channel b per point: entry (b, i, 0) is
    (∑ j, exp (−∑ c, |M[i, b, c] − M[j, b, c]|)) − 1.
  * After it the unit axis is dropped, the array transposed to 256 × 64 and joined to x along the columns.
  Each of these is stated against the reference's own stage of the same name, so the last one is the reference's result.
-/
import proofs.«145873_j72430328481231_1_alg».proof.Proof.KernelRun
import proofs.«145873_j72430328481231_1_alg».proof.Proof.Tiles
import proofs.«145873_j72430328481231_1_alg».proof.Proof.RefAt

set_option maxRecDepth 16384

noncomputable section

namespace Cert.KernelIdeal.Arrays

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat Cfg Window)
open Cert.ReferenceIdeal.Read (val_main_v0 val_main_v1 val_main_v2 val_main_v14 val_main_v15)

variable (m : (ℓ : Loc nD τ sig) → Buf (Elt Ideal) ℓ) (ρ : Dev nD → PrngReg)

/-- The argument x on device c. -/
abbrev argX (c : Dev nD) : FVec Ideal S256x1024 .f32 := m ((c : Thread nD τ).loc main_arg0)
/-- The argument T on device c. -/
abbrev argT (c : Dev nD) : FVec Ideal S1024x64x32 .f32 := m ((c : Thread nD τ).loc main_arg1)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## Entering the first region -/

theorem entry0_x (c : Dev nD) : V1 m ρ c main_arg0 = argX m c := by
  show StableHlo.after hostOps0 (W0 m ρ c) (Proc.devRef .tc main_arg0) = _
  after_results

theorem entry0_t (c : Dev nD) : V1 m ρ c main_v0 = val_main_v0 (F := Ideal) (argT m c) := by
  show StableHlo.after hostOps0 (W0 m ρ c) (Proc.devRef .tc main_v0) = _
  after_results
  rfl

/-! ## The first region: the product, block by block -/

/-- The block indices of the three windows at point t: x is read whole, the reshaped T and the product at column block t. -/
theorem idx0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem lt_four (t : Fin cfg0.N) : t.val < 4 := Nat.lt_of_lt_of_eq t.isLt N_0

/-- What point t writes back is block t of the whole product. -/
theorem flushed0 (c : Dev nD) (t : Fin cfg0.N) :
    (dat0 (V1 m ρ) c).flushed 2 t
      = ((cfg0.win 2).blk t).view.read (Elt Ideal) (val_main_v1 (F := Ideal) (argX m c) (argT m c)) := by
  show (cfg0.win 2).cut (grid0.coords t) ((dat0 (V1 m ρ) c).after 2 t) = _
  rw [after0_2]
  unfold out0_2
  rw [View.canon_unit_zero zeros2]
  simp only [View.ld_unit_zero (S := S256x1024) zeros2, View.ld_unit_zero (S := S1024x512) zeros2]
  obtain ⟨e0, e1, e2, e3, e4, e5⟩ := idx0 t
  have ht := lt_four t
  funext y
  obtain ⟨p, q, rfl⟩ : ∃ (p : Fin 256) (q : Fin 512), y = ix2 p q := ⟨y 0, y 1, eq_ix2 y⟩
  show k0_pay1 (F := Ideal) (iblk0 (V1 m ρ) c 0 t) (iblk0 (V1 m ρ) c 1 t) (ix2 p q)
    = val_main_v1 (F := Ideal) (argX m c) (argT m c) (((cfg0.win 2).blk t).view.emb (ix2 p q))
  refine (product_block (iblk0 (V1 m ρ) c 0 t) (iblk0 (V1 m ρ) c 1 t) p q).trans ?_
  have hq : q.val < 512 := q.isLt
  have hemb : ((cfg0.win 2).blk t).view.emb (ix2 p q) = (ix2 p (⟨t.val * 512 + q.val, by omega⟩ : Fin 2048) : S256x2048.Idx) := by
    funext a; apply Fin.ext
    match a with
    | ⟨0, _⟩ => show win0_2.index t (0 : Fin 2) * 256 + 1 * p.val = p.val; omega
    | ⟨1, _⟩ => show win0_2.index t (1 : Fin 2) * 512 + 1 * q.val = t.val * 512 + q.val; omega
  rw [hemb, Cert.ReferenceIdeal.At.product_apply]
  refine Finset.sum_congr rfl fun k _ => ?_
  refine congrArg₂ (· * ·) ?_ ?_
  · show V1 m ρ c main_arg0 (((cfg0.win 0).blk t).view.emb (ix2 p k)) = _
    rw [entry0_x]
    refine congrArg (argX m c) (funext fun a => Fin.ext ?_)
    match a with
    | ⟨0, _⟩ => show win0_0.index t (0 : Fin 2) * 256 + 1 * p.val = p.val; omega
    | ⟨1, _⟩ => show win0_0.index t (1 : Fin 2) * 1024 + 1 * k.val = k.val; omega
  · show V1 m ρ c main_v0 (((cfg0.win 1).blk t).view.emb (ix2 k q)) = _
    rw [entry0_t]
    refine congrArg (val_main_v0 (F := Ideal) (argT m c)) (funext fun a => Fin.ext ?_)
    match a with
    | ⟨0, _⟩ => show win0_1.index t (0 : Fin 2) * 1024 + 1 * k.val = k.val; omega
    | ⟨1, _⟩ => show win0_1.index t (1 : Fin 2) * 512 + 1 * q.val = t.val * 512 + q.val; omega

/-- An index of the product is in point t's block iff each coordinate is in the block's range on its axis. -/
theorem mem_blk0 (t : Fin cfg0.N) (i : S256x2048.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v1).slice (win0_2.rect t)).set ↔ _
  rw [View.set_slice_whole, Rect.mem_set_unit]
  exact Iff.rfl

/-- Column n lies in the block of point ⌊n / 512⌋. -/
theorem cover0 (i : S256x2048.Idx) :
    ∃ t : Fin cfg0.N, (cfg0.win 2).flush t = true ∧ i ∈ ((cfg0.win 2).blk t).view.set := by
  have hi0 : (i 0).val < 256 := (i 0).isLt
  have hi1 : (i 1).val < 2048 := (i 1).isLt
  have hN : cfg0.N = 4 := N_0
  have hlt : (i 1).val / 512 < cfg0.N := by rw [hN]; omega
  obtain ⟨e0, e1, e2, e3, e4, e5⟩ := idx0 ⟨(i 1).val / 512, hlt⟩
  refine ⟨⟨(i 1).val / 512, hlt⟩, flush0_2 _, ?_⟩
  rw [mem_blk0]
  intro a
  match a with
  | ⟨0, _⟩ =>
    show win0_2.index ⟨(i 1).val / 512, hlt⟩ (0 : Fin 2) * 256 ≤ (i 0).val ∧ (i 0).val < win0_2.index ⟨(i 1).val / 512, hlt⟩ (0 : Fin 2) * 256 + 256
    rw [e4]; omega
  | ⟨1, _⟩ =>
    show win0_2.index ⟨(i 1).val / 512, hlt⟩ (1 : Fin 2) * 512 ≤ (i 1).val ∧ (i 1).val < win0_2.index ⟨(i 1).val / 512, hlt⟩ (1 : Fin 2) * 512 + 512
    rw [e5]; show (i 1).val / 512 * 512 ≤ (i 1).val ∧ (i 1).val < (i 1).val / 512 * 512 + 512; omega

/-- The product array after the first region is the whole product. -/
theorem region0_out (c : Dev nD) :
    (dat0 (V1 m ρ) c).arrAt 2 cfg0.N = val_main_v1 (F := Ideal) (argX m c) (argT m c) :=
  (dat0 (V1 m ρ) c).arrAt_eq_of_cover 2 (val_main_v1 (F := Ideal) (argX m c) (argT m c)) (fun t _ => flushed0 m ρ c t) cover0

/-! ## Between the regions -/

theorem exit0_prod (c : Dev nD) : W2 m ρ c (Proc.devRef .tc main_v1) = val_main_v1 (F := Ideal) (argX m c) (argT m c) :=
  (W2_arr m ρ c 2).trans (region0_out m ρ c)

/-- Entering the second region, the transposed array holds M with its first two axes exchanged. -/
theorem entry1 (c : Dev nD) : V3 m ρ c main_v3
    = transpose S64x256x32 [1, 0, 2] (val_main_v2 (F := Ideal) (argX m c) (argT m c)) transposes_S256x64x32_S64x256x32_1_0_2 := by
  show StableHlo.after hostOps1 (W2 m ρ c) (Proc.devRef .tc main_v3) = _
  after_results
  rw [exit0_prod]
  rfl

/-- Entry (b, i, c) of the transposed array is M[i, b, c]. -/
theorem transposed_apply (M : S256x64x32.Idx → Elt Ideal .f32) (h : S256x64x32.Transposes [1, 0, 2] S64x256x32)
    (b : Fin 64) (i : Fin 256) (c : Fin 32) :
    transpose S64x256x32 [1, 0, 2] M h (ix3 b i c) = M (ix3 i b c) :=
  transpose_apply _ M h _ _ fun a => match a with | ⟨0, _⟩ => rfl | ⟨1, _⟩ => rfl | ⟨2, _⟩ => rfl

/-! ## The second region: one channel per point -/

/-- Both windows sit at channel t. -/
theorem idx1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

theorem lt_sixty_four (t : Fin cfg1.N) : t.val < 64 := Nat.lt_of_lt_of_eq t.isLt N_1

/-- The 64 × 256 × 1 array of columns: entry (b, i, 0) is the reference's entry (i, b). -/
def columns (x0 : FVec Ideal S256x1024 .f32) (x1 : FVec Ideal S1024x64x32 .f32) : S64x256x1.Idx → Elt Ideal .f32 :=
  fun i => val_main_v14 (F := Ideal) x0 x1 (ix2 (⟨(i 1).val, (i 1).isLt⟩ : Fin 256) (⟨(i 0).val, (i 0).isLt⟩ : Fin 64))

/-- What point t writes back is channel t's column. -/
theorem flushed1 (c : Dev nD) (t : Fin cfg1.N) :
    (dat1 (V3 m ρ) c).flushed 1 t
      = ((cfg1.win 1).blk t).view.read (Elt Ideal) (columns (argX m c) (argT m c)) := by
  show (cfg1.win 1).cut (grid1.coords t) ((dat1 (V3 m ρ) c).after 1 t) = _
  rw [after1_1]
  unfold out1_1
  rw [View.canon_unit_zero zeros3]
  simp only [View.ld_unit_zero (S := S1x256x32) zeros3]
  obtain ⟨e0, e1, e2, e3, e4, e5⟩ := idx1 t
  have ht := lt_sixty_four t
  funext y
  obtain ⟨u, i, w, rfl⟩ : ∃ (u : Fin 1) (i : Fin 256) (w : Fin 1), y = ix3 u i w := ⟨y 0, y 1, y 2, eq_ix3 y⟩
  obtain rfl : u = 0 := Subsingleton.elim _ _
  obtain rfl : w = 0 := Subsingleton.elim _ _
  show k1_pay1 (F := Ideal) (iblk1 (V3 m ρ) c 0 t) (ix3 (0 : Fin 1) i (0 : Fin 1))
    = columns (argX m c) (argT m c) (((cfg1.win 1).blk t).view.emb (ix3 (0 : Fin 1) i (0 : Fin 1)))
  refine (column_block (iblk1 (V3 m ρ) c 0 t) i).trans ?_
  have hcol : columns (argX m c) (argT m c) (((cfg1.win 1).blk t).view.emb (ix3 (0 : Fin 1) i (0 : Fin 1)))
      = val_main_v14 (F := Ideal) (argX m c) (argT m c) (ix2 i (⟨t.val, ht⟩ : Fin 64)) := by
    unfold columns
    refine congrArg (val_main_v14 (F := Ideal) (argX m c) (argT m c)) (funext fun a => Fin.ext ?_)
    match a with
    | ⟨0, _⟩ => show win1_1.index t (1 : Fin 3) * 256 + 1 * i.val = i.val; omega
    | ⟨1, _⟩ => show win1_1.index t (0 : Fin 3) * 1 + 1 * 0 = t.val; omega
  rw [hcol, Cert.ReferenceIdeal.At.out_apply]
  have hblk : ∀ (r : Fin 256) (c' : Fin 32), iblk1 (V3 m ρ) c 0 t (ix3 (0 : Fin 1) r c')
      = val_main_v2 (F := Ideal) (argX m c) (argT m c) (ix3 r (⟨t.val, ht⟩ : Fin 64) c') := by
    intro r c'
    show V3 m ρ c main_v3 (((cfg1.win 0).blk t).view.emb (ix3 (0 : Fin 1) r c')) = _
    rw [entry1]
    refine Eq.trans (congrArg _ ?_) (transposed_apply _ _ (⟨t.val, ht⟩ : Fin 64) r c')
    funext a; apply Fin.ext
    match a with
    | ⟨0, _⟩ => show win1_0.index t (0 : Fin 3) * 1 + 1 * 0 = t.val; omega
    | ⟨1, _⟩ => show win1_0.index t (1 : Fin 3) * 256 + 1 * r.val = r.val; omega
    | ⟨2, _⟩ => show win1_0.index t (2 : Fin 3) * 32 + 1 * c'.val = c'.val; omega
  refine congrArg (· - _) (Finset.sum_congr rfl fun j _ => ?_)
  rw [Ideal.ofBits_zero_f32, zero_sub]
  refine congrArg (fun s => Ideal.exp (-s)) (Finset.sum_congr rfl fun c' _ => ?_)
  rw [hblk, hblk]

/-- An index of the column array is in point t's block iff each coordinate is in the block's range on its axis. -/
theorem mem_blk1 (t : Fin cfg1.N) (i : S64x256x1.Idx) :
    i ∈ ((cfg1.win 1).blk t).view.set ↔ ∀ a : Fin 3, win1_1.index t a * S1x256x1.size a ≤ (i a).val ∧ (i a).val < win1_1.index t a * S1x256x1.size a + S1x256x1.size a := by
  show i ∈ ((View.whole main_v4).slice (win1_1.rect t)).set ↔ _
  rw [View.set_slice_whole, Rect.mem_set_unit]
  exact Iff.rfl

/-- Channel b lies in the block of point b. -/
theorem cover1 (i : S64x256x1.Idx) :
    ∃ t : Fin cfg1.N, (cfg1.win 1).flush t = true ∧ i ∈ ((cfg1.win 1).blk t).view.set := by
  have hi0 : (i 0).val < 64 := (i 0).isLt
  have hi1 : (i 1).val < 256 := (i 1).isLt
  have hi2 : (i 2).val < 1 := (i 2).isLt
  have hN : cfg1.N = 64 := N_1
  have hlt : (i 0).val < cfg1.N := by rw [hN]; exact hi0
  obtain ⟨e0, e1, e2, e3, e4, e5⟩ := idx1 ⟨(i 0).val, hlt⟩
  refine ⟨⟨(i 0).val, hlt⟩, flush1_1 _, ?_⟩
  rw [mem_blk1]
  intro a
  match a with
  | ⟨0, _⟩ =>
    show win1_1.index ⟨(i 0).val, hlt⟩ (0 : Fin 3) * 1 ≤ (i 0).val ∧ (i 0).val < win1_1.index ⟨(i 0).val, hlt⟩ (0 : Fin 3) * 1 + 1
    rw [e3]; show (i 0).val * 1 ≤ (i 0).val ∧ (i 0).val < (i 0).val * 1 + 1; omega
  | ⟨1, _⟩ =>
    show win1_1.index ⟨(i 0).val, hlt⟩ (1 : Fin 3) * 256 ≤ (i 1).val ∧ (i 1).val < win1_1.index ⟨(i 0).val, hlt⟩ (1 : Fin 3) * 256 + 256
    rw [e4]; omega
  | ⟨2, _⟩ =>
    show win1_1.index ⟨(i 0).val, hlt⟩ (2 : Fin 3) * 1 ≤ (i 2).val ∧ (i 2).val < win1_1.index ⟨(i 0).val, hlt⟩ (2 : Fin 3) * 1 + 1
    rw [e5]; omega

/-- The column array after the second region. -/
theorem region1_out (c : Dev nD) :
    (dat1 (V3 m ρ) c).arrAt 1 cfg1.N = columns (argX m c) (argT m c) :=
  (dat1 (V3 m ρ) c).arrAt_eq_of_cover 1 (columns (argX m c) (argT m c)) (fun t _ => flushed1 m ρ c t) cover1

/-! ## After the second region -/

theorem exit1_cols (c : Dev nD) : W4 m ρ c (Proc.devRef .tc main_v4) = columns (argX m c) (argT m c) :=
  (W4_arr m ρ c 1).trans (region1_out m ρ c)

theorem exit1_x (c : Dev nD) : W4 m ρ c (Proc.devRef .tc main_arg0) = argX m c := by
  have e : W5 m ρ c (Proc.devRef .tc main_arg0) = W4 m ρ c (Proc.devRef .tc main_arg0) := by
    show StableHlo.after hostOps2 (W4 m ρ c) (Proc.devRef .tc main_arg0) = _
    after_results
  exact e.symm.trans (W5_main_arg0 m ρ c)

/-- With the unit axis dropped and the first two axes exchanged, the columns are the reference's 256 × 64 array. -/
theorem tail_eq (x0 : FVec Ideal S256x1024 .f32) (x1 : FVec Ideal S1024x64x32 .f32)
    (h1 : S64x256x1.ShapeCasts S64x256) (h2 : S64x256.Transposes [1, 0] S256x64) :
    transpose S256x64 [1, 0] (shapeCast S64x256 (columns x0 x1) h1) h2 = val_main_v14 (F := Ideal) x0 x1 := by
  funext y
  obtain ⟨i, b, rfl⟩ : ∃ (i : Fin 256) (b : Fin 64), y = ix2 i b := ⟨y 0, y 1, eq_ix2 y⟩
  rw [transpose_ix2_apply]
  refine (shapeCast_apply (columns x0 x1) h1 (ix2 b i) (ix3 b i (0 : Fin 1)) (by
    rw [Shape.rowMajor_val_three, Shape.rowMajor_val_two]
    show (b.val * 256 + i.val) * 1 + 0 = b.val * 256 + i.val
    omega)).trans ?_
  rfl

/-- THE RESULT: the last boundary's contents of the result buffer are the reference's result of the same arguments. -/
theorem result_eq (c : Dev nD) :
    W5 m ρ c (Proc.devRef .tc main_v7) = val_main_v15 (F := Ideal) (argX m c) (argT m c) := by
  show StableHlo.after hostOps2 (W4 m ρ c) (Proc.devRef .tc main_v7) = _
  after_results
  rw [exit1_x, exit1_cols]
  exact congrArg (fun z : S256x64.Idx → Elt Ideal .f32 =>
      concatenate S256x1088 1 [⟨S256x1024, argX m c⟩, ⟨S256x64, z⟩] concatenates_S256x1024_S256x64_S256x1088_d1)
    (tail_eq (argX m c) (argT m c) shapeCasts_S64x256x1_S64x256 transposes_S64x256_S256x64_1_0)

end Cert.KernelIdeal.Arrays

end
-- ==== Proof.lean ====
/-
  The certificate of the minibatch-discrimination kernel against its jnp reference.

  Both programs compute, from x (256 × 1024) and T (1024 × 64 × 32), the array [x | out] of 256 × 1088 entries with
      M = (x · reshape T) as 256 × 64 × 32,   out[i, b] = (∑ j, exp (−∑ c, |M[i, b, c] − M[j, b, c]|)) − 1.
  The kernel program forms the product in four column blocks on the matrix unit (bf16 operands, which at the ideal
  instance are the operands themselves), transposes M so that each channel b is one block, and for each channel builds
  the 256 × 256 table of L1 distances, exponentiates its negation and sums over j; the reference does the same with
  broadcasts over a 256 × 256 × 64 × 32 array. On the extended reals the two agree term by term: a product accumulated
  into zero is the sum, 0 − a is −a, and both sums of each side start from 0. No law of the reals beyond these is used,
  so the precondition is never opened.

  The three frames: the two kernel programs' are the generated ones; the reference's is its generated run with the
  result dropped. No rewrite was applied by the ideal pass, so `preserves` has nothing to state. For `algebraic` the
  kernel program's run is read boundary by boundary down to the reference's own result term (Proof/KernelValue.lean).
-/
import proofs.«145873_j72430328481231_1_alg».proof.Defs
import proofs.«145873_j72430328481231_1_alg».proof.Proof.Gen.Kernel
import proofs.«145873_j72430328481231_1_alg».proof.Proof.Gen.Kernel.Skeleton
import proofs.«145873_j72430328481231_1_alg».proof.Proof.Gen.Kernel.Launch
import proofs.«145873_j72430328481231_1_alg».proof.Proof.Gen.Kernel.Points
import proofs.«145873_j72430328481231_1_alg».proof.Proof.Gen.Kernel.Frame
import proofs.«145873_j72430328481231_1_alg».proof.Proof.Gen.KernelIdeal
import proofs.«145873_j72430328481231_1_alg».proof.Proof.Gen.KernelIdeal.Skeleton
import proofs.«145873_j72430328481231_1_alg».proof.Proof.Gen.KernelIdeal.Launch
import proofs.«145873_j72430328481231_1_alg».proof.Proof.Gen.KernelIdeal.Points
import proofs.«145873_j72430328481231_1_alg».proof.Proof.Gen.KernelIdeal.Frame
import proofs.«145873_j72430328481231_1_alg».proof.Proof.Gen.ReferenceIdeal
import proofs.«145873_j72430328481231_1_alg».proof.Proof.Gen.ReferenceIdeal.Run
import proofs.«145873_j72430328481231_1_alg».proof.Proof.Gen.ReferenceIdeal.Read
import proofs.«145873_j72430328481231_1_alg».proof.Proof.Gen.Pre_finite_inputs
import proofs.«145873_j72430328481231_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the reference's result term of the kernel program's arguments. -/
theorem algebraic : Cert.algebraic_KernelIdeal_ReferenceIdeal := by
  intro m ρ m' ρ' _ hagree
  refine ⟨fun c => Cert.ReferenceIdeal.Read.val_main_v15 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Arrays.result_eq m ρ c), (h c).2⟩)
      (Cert.KernelIdeal.Result.run_result m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.Read.val_main_v15_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
